-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S800000x128 .f32) (main_arg1 : FVec F S50000x128 .f32) (main_arg2 : IVec S800000 32) (main_arg3 : FVec F S128x256 .f32) (main_arg4 : FVec F S128 .f32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S800000x128 : Shape := ⟨2, ![800000, 128]⟩
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩
abbrev S800000x1 : Shape := ⟨2, ![800000, 1]⟩
abbrev S256x128 : Shape := ⟨2, ![256, 128]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 13
  | .vmem => 8
  | .smem => 0
  | _ => 0

abbrev bufTy : (tb : Table) → Fin (tcTables nBuf tb) → BufTy
  | .hbm, ⟨0, _⟩ => ⟨S800000x128, .f32⟩
  | .hbm, ⟨1, _⟩ => ⟨S50000x128, .f32⟩
  | .hbm, ⟨2, _⟩ => ⟨S800000, .i32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S50000x128, .f32⟩
  | .hbm, ⟨7, _⟩ => ⟨S800000x1, .i32⟩
  | .hbm, ⟨8, _⟩ => ⟨S50000x128, .f32⟩
  | .hbm, ⟨9, _⟩ => ⟨S256x128, .f32⟩
  | .hbm, ⟨10, _⟩ => ⟨S256x128, .bf16⟩
  | .hbm, ⟨11, _⟩ => ⟨S1x128, .f32⟩
  | .hbm, ⟨12, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .bf16⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  transposes_S128x256_S256x128_1_0 : S128x256.Transposes [1, 0] S256x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S800000x128 : Shape := ⟨2, ![800000, 128]⟩
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩
abbrev S800000x1 : Shape := ⟨2, ![800000, 1]⟩
abbrev S50000x256 : Shape := ⟨2, ![50000, 256]⟩
abbrev S256x128 : Shape := ⟨2, ![256, 128]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S50000x128, .f32⟩
  | .hbm, ⟨2, _⟩ => ⟨S800000, .i32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S50000x128, .f32⟩
  | .hbm, ⟨7, _⟩ => ⟨S800000x1, .i32⟩
  | .hbm, ⟨8, _⟩ => ⟨S50000x128, .f32⟩
  | .hbm, ⟨9, _⟩ => ⟨S50000x256, .f32⟩
  | .hbm, ⟨10, _⟩ => ⟨S256x128, .f32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S50000x128, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Layer.lean ====
/-
  One dense layer applied to every node of a graph, at the ideal values.

  Node `p` carries a row of 256 joined features (its own 128 features followed by the 128 aggregated from its
  incoming edges). The layer sends it to 128 output features: feature `q` is

      max (∑ k < 256, Q[p, k] · Wt[k, q]  +  b[q], 0)

  on the extended reals, `Wt` the 256 × 128 weight matrix and `b` the bias. Nothing here needs the entries to be
  finite: both programs form this one sum, term by term in the same order, so no law of the extended reals beyond
  reading each operation at an index is used.

  Besides the layer itself, two facts about rows: a one-row matrix broadcast down 2000 rows reads its column entry
  whatever the row, and row `r` of the join of two 2000-row blocks is row `R` of the join of the two 50000-row
  arrays as soon as the blocks' rows `r` are the arrays' rows `R`.
-/
import Idealize.ShloMosaic.Lib.ValueIdx
import Idealize.ShloMosaic.Lib.Pipeline.Value
import Idealize.ShloMosaic.PureOps.Ideal.Laws

open scoped BigOperators

noncomputable section

namespace Cert.NodeLayer

open Idealize.ShloMosaic Idealize.ShloMosaic.ValueIdx

/-- The layer: joined features `Q` (one row per node), weights `Wt` (one column per output feature), bias `b`. -/
def layer {φQ φW φb : FTy} (Q : FVec Ideal ⟨2, ![50000, 256]⟩ φQ) (Wt : FVec Ideal ⟨2, ![256, 128]⟩ φW)
    (b : FVec Ideal ⟨1, ![128]⟩ φb) : FVec Ideal ⟨2, ![50000, 128]⟩ .f32 :=
  fun j => max ((∑ k : Fin 256, Q (ix2 (j 0) k) * Wt (ix2 k (j 1))) + b (ix1 (j 1))) (Ideal.ofBits .f32 0x00000000#32)

/-- The layer at node `p`, output feature `q`. -/
theorem layer_apply {φQ φW φb : FTy} (Q : FVec Ideal ⟨2, ![50000, 256]⟩ φQ) (Wt : FVec Ideal ⟨2, ![256, 128]⟩ φW)
    (b : FVec Ideal ⟨1, ![128]⟩ φb) (p : Fin 50000) (q : Fin 128) :
    layer Q Wt b (ix2 p q)
      = max ((∑ k : Fin 256, Q (ix2 p k) * Wt (ix2 k q)) + b (ix1 q)) (Ideal.ofBits .f32 0x00000000#32) := rfl

/-- A 1 × 128 matrix, re-declared at its own shape and broadcast down 2000 rows, reads at `(r, q)` its entry `(0, q)`. -/
theorem bias_row {α : Type} (v : (⟨2, ![1, 128]⟩ : Shape).Idx → α)
    (h1 : (⟨2, ![1, 128]⟩ : Shape).ShapeCasts ⟨2, ![1, 128]⟩)
    (h2 : (⟨2, ![1, 128]⟩ : Shape).Broadcasts ⟨2, ![2000, 128]⟩) (r : Fin 2000) (q : Fin 128) :
    broadcastTo ⟨2, ![2000, 128]⟩ (shapeCast ⟨2, ![1, 128]⟩ v h1) h2 (ix2 r q) = v (ix2 0 q) := by
  rw [shapeCast_self]
  exact broadcastTo_apply v h2 (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])

/-- Row `r` of two blocks joined side by side is row `R` of the two arrays joined side by side, when each block's row
    `r` is its array's row `R`: a column below 128 falls in the first piece on both sides, a column from 128 on in the
    second, 128 columns further left. -/
theorem join_row {α : Type} (xb hb : (⟨2, ![2000, 128]⟩ : Shape).Idx → α) (x ha : (⟨2, ![50000, 128]⟩ : Shape).Idx → α)
    (hc : Shape.Concatenates [(⟨2, ![2000, 128]⟩ : Shape), ⟨2, ![2000, 128]⟩] ⟨2, ![2000, 256]⟩ 1)
    (hC : Shape.Concatenates [(⟨2, ![50000, 128]⟩ : Shape), ⟨2, ![50000, 128]⟩] ⟨2, ![50000, 256]⟩ 1)
    (r : Fin 2000) (R : Fin 50000) (hx : ∀ k : Fin 128, xb (ix2 r k) = x (ix2 R k))
    (hh : ∀ k : Fin 128, hb (ix2 r k) = ha (ix2 R k)) (k : Fin 256) :
    concatenate ⟨2, ![2000, 256]⟩ 1 [⟨⟨2, ![2000, 128]⟩, xb⟩, ⟨⟨2, ![2000, 128]⟩, hb⟩] hc (ix2 r k)
      = concatenate ⟨2, ![50000, 256]⟩ 1 [⟨⟨2, ![50000, 128]⟩, x⟩, ⟨⟨2, ![50000, 128]⟩, ha⟩] hC (ix2 R k) := by
  by_cases h : k.val < 128
  · rw [concatenate_pair_apply_left 1 xb hb hc (ix2 r k) rfl (ix2 r ⟨k.val, h⟩)
        (fun b => match b with | ⟨0, _⟩ => rfl | ⟨1, _⟩ => rfl),
      concatenate_pair_apply_left 1 x ha hC (ix2 R k) rfl (ix2 R ⟨k.val, h⟩)
        (fun b => match b with | ⟨0, _⟩ => rfl | ⟨1, _⟩ => rfl)]
    exact hx _
  · have h' : k.val - 128 < 128 := by have := k.isLt; omega
    rw [concatenate_pair_apply_right 1 xb hb hc (ix2 r k) rfl rfl (ix2 r ⟨k.val - 128, h'⟩)
        (fun b hne => match b, hne with
          | ⟨0, _⟩, _ => rfl
          | ⟨1, _⟩, hne => absurd rfl hne)
        (by show k.val - 128 + 128 = k.val; omega),
      concatenate_pair_apply_right 1 x ha hC (ix2 R k) rfl rfl (ix2 R ⟨k.val - 128, h'⟩)
        (fun b hne => match b, hne with
          | ⟨0, _⟩, _ => rfl
          | ⟨1, _⟩, hne => absurd rfl hne)
        (by show k.val - 128 + 128 = k.val; omega)]
    exact hh _

end Cert.NodeLayer

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.BodyLayer.lean ====
/-
  What the kernel's body stores, read at one element.

  At a grid point the body holds a 2000-row block of the nodes' own features, the matching block of aggregated
  features, the whole weight matrix and the one-row bias. It joins the two blocks side by side, multiplies by the
  weights into a zero accumulator, adds the bias row to every row and clamps below at zero. Read at `(r, q)`, with
  the changes of float format the identity on extended reals, that is

      max (∑ k < 256, (join of the blocks)[r, k] · weights[k, q]  +  bias[0, q], 0).
-/
import proofs.«128470_j7387343749430_1_alg».proof.Proof.Gen.KernelIdeal.Skeleton
import proofs.«128470_j7387343749430_1_alg».proof.Proof.Layer
import proofs.«128470_j7387343749430_1_alg».proof.Proof.LibPlainDot

open scoped BigOperators

noncomputable section

namespace Cert.KernelIdeal.Body

open Cert.KernelIdeal Cert.KernelIdeal.Gen Idealize.ShloMosaic Idealize.ShloMosaic.ValueIdx

/-- The stored value at row `r`, column `q` of the block. -/
theorem pay_apply (v0 v2 : Vec Ideal S2000x128 .f32) (v6 : Vec Ideal S256x128 .bf16) (v9 : Vec Ideal S1x128 .f32)
    (r : Fin 2000) (q : Fin 128) :
    k0_pay1 (F := Ideal) v0 v2 v6 v9 (ix2 r q)
      = max ((∑ k : Fin 256,
            concatenate S2000x256 1 [⟨S2000x128, v0⟩, ⟨S2000x128, v2⟩] concatenates_S2000x128_S2000x128_S2000x256_d1 (ix2 r k)
              * v6 (ix2 k q)) + v9 (ix2 0 q)) (Ideal.ofBits .f32 0x00000000#32) := by
  unfold k0_pay1
  show max (matmul (F := Ideal) dot_S2000x256_S256x128_S2000x128_1_0_0_1_n_n none
        (concatenate S2000x256 1 [⟨S2000x128, v0⟩, ⟨S2000x128, shapeCast S2000x128 v2 shapeCasts_S2000x128_S2000x128⟩]
          concatenates_S2000x128_S2000x128_S2000x256_d1)
        (shapeCast S256x128 v6 shapeCasts_S256x128_S256x128) (constant (F := Ideal) S2000x128 .f32 0x00000000#32) (ix2 r q)
      + broadcastTo S2000x128 (shapeCast S1x128 v9 shapeCasts_S1x128_S1x128) broadcasts_S1x128_S2000x128 (ix2 r q))
      (Ideal.ofBits .f32 0x00000000#32) = _
  rw [shapeCast_self v2, shapeCast_self v6,
    PlainDot.matmul_zero_apply dot_S2000x256_S256x128_S2000x128_1_0_0_1_n_n rfl rfl rfl rfl rfl rfl rfl rfl,
    Cert.NodeLayer.bias_row]

end Cert.KernelIdeal.Body

end
-- ==== Proof.KernelLayer.lean ====
/-
  The kernel's result array is the layer of what the host prepared.

  Before the one pipelined call the host has aggregated the edge features onto their destination nodes, transposed
  the weight matrix and made the bias a 1 × 128 row. The call walks the 50000 nodes in 25 blocks of 2000 rows:
  at block `t` it reads rows `2000 t … 2000 t + 1999` of the nodes' own features and of the aggregated ones, the
  whole weights and the bias row, and writes rows `2000 t … 2000 t + 1999` of the result. Row `r` of block `t` is
  node `2000 t + r`; the joined row of the two blocks is the joined row of the two arrays there, so what is
  written is the layer's row `2000 t + r`. The 25 blocks cover every node (node `p` lies in block `p / 2000`), so
  the whole result array is the layer.
-/
import proofs.«128470_j7387343749430_1_alg».proof.Proof.Gen.KernelIdeal.Value
import proofs.«128470_j7387343749430_1_alg».proof.Proof.BodyLayer
import proofs.«128470_j7387343749430_1_alg».proof.Proof.Layer
import Idealize.ShloMosaic.Lib.StableHlo.Run

open scoped BigOperators

noncomputable section

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Two 50000 × 128 arrays join side by side into a 50000 × 256 one. -/
theorem joins : Shape.Concatenates [S50000x128, S50000x128] (⟨2, ![50000, 256]⟩ : Shape) 1 := by decide

/-! ## What the host prepared -/

/-- The aggregated edge features: every edge's row added onto its destination node's row, from zero. -/
def aggr (c : Dev nD) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (m ((c : Thread nD τ).loc main_arg2)))
    (m ((c : Thread nD τ).loc main_arg0))

theorem V_aggr (c : Dev nD) : (V m c main_v2 : S50000x128.Idx → EReal) = aggr m c := by
  unfold aggr
  dsimp only [Gen.V, Gen.hostOps0]; after_results <;> rfl

/-- The weights as the region finds them: the transposed matrix (the change of format is the identity). -/
theorem V_weights (c : Dev nD) : (V m c main_v4 : S256x128.Idx → EReal)
    = transpose S256x128 [1, 0] (m ((c : Thread nD τ).loc main_arg3)) transposes_S128x256_S256x128_1_0 := by
  dsimp only [Gen.V, Gen.hostOps0]; after_results; rfl

/-- The bias as the region finds it: the 128 entries as one row. -/
theorem V_bias (c : Dev nD) : (V m c main_v5 : S1x128.Idx → EReal)
    = shapeCast S1x128 (m ((c : Thread nD τ).loc main_arg4)) shapeCasts_S128_S1x128 := by
  dsimp only [Gen.V, Gen.hostOps0]; after_results; rfl

/-! ## The result array -/

/-- The layer over the arrays as the region finds them. -/
def found (c : Dev nD) : FVec Ideal S50000x128 .f32 :=
  Cert.NodeLayer.layer (φQ := .f32) (φW := .f32) (φb := .f32)
    (concatenate (⟨2, ![50000, 256]⟩ : Shape) 1 [⟨S50000x128, V m c main_arg1⟩, ⟨S50000x128, V m c main_v2⟩] joins)
    (V m c main_v4) (fun i => V m c main_v5 (ix2 0 (i 0)))

theorem hz : (![0, 0] : Fin 2 → Nat) = fun _ => 0 := funext fun a => by fin_cases a <;> rfl

/-- The printed index maps over the 25 grid points: blocks of rows move with the point, the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## A block read off any array

  Stated for an arbitrary array `A`, so that what the array holds plays no part: row `r` of block `t` of a
  50000-row array is its row `2000 t + r`; the weights' and the bias's one block is the whole array. -/

/-- Row `r`, column `k` of block `t` of the array the first window stages. -/
theorem rows0 (c : Dev nD) (A : Buf (Elt Ideal) ((cfg0.win 0).arr.view.loc (c.tc : Thread nD τ))) (t : Fin cfg0.N)
    (r : Fin 2000) (k : Fin 128) (hR : 2000 * t.val + r.val < 50000) :
    ((cfg0.win 0).blk t).view.read (Elt Ideal) A (ix2 r k) = A (ix2 ⟨2000 * t.val + r.val, hR⟩ k) := by
  obtain ⟨e00, e01, -⟩ := idx_facts t
  show A (((cfg0.win 0).blk t).view.emb (ix2 r k)) = _
  refine congrArg A (funext fun a => Fin.ext ?_)
  match a with
  | ⟨0, _⟩ => show win0_0.index t (0 : Fin 2) * 2000 + 1 * r.val = 2000 * t.val + r.val; omega
  | ⟨1, _⟩ => show win0_0.index t (1 : Fin 2) * 128 + 1 * k.val = k.val; omega

/-- The same for the array the second window stages. -/
theorem rows1 (c : Dev nD) (A : Buf (Elt Ideal) ((cfg0.win 1).arr.view.loc (c.tc : Thread nD τ))) (t : Fin cfg0.N)
    (r : Fin 2000) (k : Fin 128) (hR : 2000 * t.val + r.val < 50000) :
    ((cfg0.win 1).blk t).view.read (Elt Ideal) A (ix2 r k) = A (ix2 ⟨2000 * t.val + r.val, hR⟩ k) := by
  obtain ⟨-, -, e10, e11, -⟩ := idx_facts t
  show A (((cfg0.win 1).blk t).view.emb (ix2 r k)) = _
  refine congrArg A (funext fun a => Fin.ext ?_)
  match a with
  | ⟨0, _⟩ => show win0_1.index t (0 : Fin 2) * 2000 + 1 * r.val = 2000 * t.val + r.val; omega
  | ⟨1, _⟩ => show win0_1.index t (1 : Fin 2) * 128 + 1 * k.val = k.val; omega

/-- The weights' block at any point is the whole 256 × 128 array. -/
theorem whole2 (c : Dev nD) (A : Buf (Elt Ideal) ((cfg0.win 2).arr.view.loc (c.tc : Thread nD τ))) (t : Fin cfg0.N)
    (k : Fin 256) (q : Fin 128) : ((cfg0.win 2).blk t).view.read (Elt Ideal) A (ix2 k q) = A (ix2 k q) := by
  obtain ⟨-, -, -, -, e20, e21, -⟩ := idx_facts t
  show A (((cfg0.win 2).blk t).view.emb (ix2 k q)) = _
  refine congrArg A (funext fun a => Fin.ext ?_)
  match a with
  | ⟨0, _⟩ => show win0_2.index t (0 : Fin 2) * 256 + 1 * k.val = k.val; omega
  | ⟨1, _⟩ => show win0_2.index t (1 : Fin 2) * 128 + 1 * q.val = q.val; omega

/-- The bias's block at any point is the whole 1 × 128 row. -/
theorem whole3 (c : Dev nD) (A : Buf (Elt Ideal) ((cfg0.win 3).arr.view.loc (c.tc : Thread nD τ))) (t : Fin cfg0.N)
    (q : Fin 128) : ((cfg0.win 3).blk t).view.read (Elt Ideal) A (ix2 0 q) = A (ix2 0 q) := by
  obtain ⟨-, -, -, -, -, -, e30, e31, -⟩ := idx_facts t
  show A (((cfg0.win 3).blk t).view.emb (ix2 0 q)) = _
  refine congrArg A (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- What point `t` writes back is block `t` of the layer. -/
theorem flushed_eq (c : Dev nD) (t : Fin cfg0.N) :
    (dats m 0 c).flushed 4 t = ((cfg0.win 4).blk t).view.read (Elt Ideal) (found m c) := by
  rw [Cert.KernelIdeal.Value.flushed4]
  unfold out0_4
  rw [View.canon_unit_zero hz]
  simp only [View.ld_unit_zero (S := S2000x128) hz, View.ld_unit_zero (S := S256x128) hz,
    View.ld_unit_zero (S := S1x128) hz]
  obtain ⟨e00, e01, e10, e11, e20, e21, e30, e31, e40, e41⟩ := idx_facts t
  have ht : t.val < 25 := t.isLt
  funext j
  obtain ⟨r, q, rfl⟩ : ∃ (r : Fin 2000) (q : Fin 128), j = ix2 r q := ⟨j 0, j 1, eq_ix2 j⟩
  have hr : r.val < 2000 := r.isLt
  have hR : 2000 * t.val + r.val < 50000 := by omega
  show k0_pay1 (F := Ideal) (iblk m c 0 t) (iblk m c 1 t) (iblk m c 2 t) (iblk m c 3 t) (ix2 r q)
    = found m c (((cfg0.win 4).blk t).view.emb (ix2 r q))
  have hemb : ((cfg0.win 4).blk t).view.emb (ix2 r q) = ix2 ⟨2000 * t.val + r.val, hR⟩ q := by
    funext a; apply Fin.ext
    match a with
    | ⟨0, _⟩ => show win0_4.index t (0 : Fin 2) * 2000 + 1 * r.val = 2000 * t.val + r.val; omega
    | ⟨1, _⟩ => show win0_4.index t (1 : Fin 2) * 128 + 1 * q.val = q.val; omega
  have hx : ∀ k : Fin 128, iblk m c 0 t (ix2 r k) = V m c main_arg1 (ix2 ⟨2000 * t.val + r.val, hR⟩ k) :=
    fun k => rows0 c (V m c main_arg1) t r k hR
  have hh : ∀ k : Fin 128, iblk m c 1 t (ix2 r k) = V m c main_v2 (ix2 ⟨2000 * t.val + r.val, hR⟩ k) :=
    fun k => rows1 c (V m c main_v2) t r k hR
  have hw : ∀ k : Fin 256, iblk m c 2 t (ix2 k q) = V m c main_v4 (ix2 k q) :=
    fun k => whole2 c (V m c main_v4) t k q
  have hb : iblk m c 3 t (ix2 0 q) = V m c main_v5 (ix2 0 q) := whole3 c (V m c main_v5) t q
  refine (Cert.KernelIdeal.Body.pay_apply (iblk m c 0 t) (iblk m c 1 t) (iblk m c 2 t) (iblk m c 3 t) r q).trans ?_
  rw [hemb]
  unfold found
  rw [Cert.NodeLayer.layer_apply]
  refine congrArg₂ max (congrArg₂ (· + ·) (Finset.sum_congr rfl fun k _ => congrArg₂ (· * ·) ?_ (hw k)) hb) rfl
  exact Cert.NodeLayer.join_row (iblk m c 0 t) (iblk m c 1 t) (V m c main_arg1) (V m c main_v2)
    concatenates_S2000x128_S2000x128_S2000x256_d1 joins r ⟨2000 * t.val + r.val, hR⟩ hx hh k

/-- An index of the result array is in point `t`'s block iff each coordinate is in the block's range on its axis. -/
theorem mem_blk (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v6).slice (win0_4.rect t)).set ↔ _
  rw [View.set_slice_whole, Rect.mem_set_unit]
  exact Iff.rfl

/-- Every node's row lies in some point's block: node `p` in block `p / 2000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hlt : (i 0).val / 2000 < 25 := by omega
  refine ⟨⟨(i 0).val / 2000, hlt⟩, flush0_4 _, ?_⟩
  obtain ⟨-, -, -, -, -, -, -, -, e40, e41⟩ := idx_facts ⟨(i 0).val / 2000, hlt⟩
  have e40' : win0_4.index ⟨(i 0).val / 2000, hlt⟩ (0 : Fin 2) = (i 0).val / 2000 := e40
  rw [mem_blk]
  intro a
  match a with
  | ⟨0, _⟩ =>
    show win0_4.index ⟨(i 0).val / 2000, hlt⟩ (0 : Fin 2) * 2000 ≤ (i 0).val
      ∧ (i 0).val < win0_4.index ⟨(i 0).val / 2000, hlt⟩ (0 : Fin 2) * 2000 + 2000
    omega
  | ⟨1, _⟩ =>
    show win0_4.index ⟨(i 0).val / 2000, hlt⟩ (1 : Fin 2) * 128 ≤ (i 1).val
      ∧ (i 1).val < win0_4.index ⟨(i 0).val / 2000, hlt⟩ (1 : Fin 2) * 128 + 128
    omega

/-- The result array after the run is the layer over the arrays as the region finds them. -/
theorem final (c : Dev nD) : (dats m 0 c).arrAt 4 cfg0.N = found m c :=
  (dats m 0 c).arrAt_eq_of_cover 4 (found m c) (fun t _ => flushed_eq m c t) cover

/-- The layer over the argument arrays: the join of the nodes' features with the aggregated edge features, the
    transposed weights, the bias. -/
def result (c : Dev nD) : FVec Ideal S50000x128 .f32 :=
  Cert.NodeLayer.layer (φQ := .f32) (φW := .f32) (φb := .f32)
    (concatenate (⟨2, ![50000, 256]⟩ : Shape) 1
      [⟨S50000x128, m ((c : Thread nD τ).loc main_arg1)⟩, ⟨S50000x128, aggr m c⟩] joins)
    (transpose S256x128 [1, 0] (m ((c : Thread nD τ).loc main_arg3)) transposes_S128x256_S256x128_1_0)
    (m ((c : Thread nD τ).loc main_arg4))

/-- The bias row's entry `(0, q)` is the bias's entry `q`: the row is the 128 entries in row-major order. -/
theorem bias_eq (c : Dev nD) :
    (fun i : S128.Idx => V m c main_v5 (ix2 0 (i 0))) = m ((c : Thread nD τ).loc main_arg4) := by
  funext i
  obtain ⟨q, rfl⟩ : ∃ q : Fin 128, i = ix1 q := ⟨i 0, eq_ix1 i⟩
  show V m c main_v5 (ix2 0 q) = _
  rw [V_bias]
  exact shapeCast_apply _ shapeCasts_S128_S1x128 (ix2 0 q) (ix1 q) (by
    rw [Shape.rowMajor_val_one, Shape.rowMajor_val_two]
    show q.val = 0 * 128 + q.val
    omega)

/-- What the region finds is what the host made of the arguments. -/
theorem found_eq_result (c : Dev nD) : found m c = result m c := by
  unfold found result
  rw [V_main_arg1, V_aggr, V_weights, bias_eq]

/-- The kernel's run, its result array named: the layer over the argument arrays; the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq_result m c)), (h c).2⟩)
    (Cert.KernelIdeal.Value.run_blocks m ρ)

end Cert.KernelIdeal.NodeValue

end
-- ==== Proof.RefLayer.lean ====
/-
  The reference computes the layer.

  Its result is `max (join · Wᵀ + bias, 0)` with the join of the nodes' features and their aggregated edge
  features as left factor and the transposed weight matrix as right factor. Read at node `p`, feature `q`: the
  product is the sum over the 256 joined columns, the bias (first made a 1 × 128 row, then spread over the nodes)
  is its entry `q`, and the zero it is clamped at is the splat of the zero word.
-/
import proofs.«128470_j7387343749430_1_alg».proof.Proof.Gen.ReferenceIdeal.Read
import proofs.«128470_j7387343749430_1_alg».proof.Proof.Layer

open scoped BigOperators

noncomputable section

namespace Cert.ReferenceIdeal.RefLayer

open Cert.ReferenceIdeal Cert.ReferenceIdeal.Gen Cert.ReferenceIdeal.Read Idealize.ShloMosaic Idealize.ShloMosaic.ValueIdx

/-- The reference's result, as a function of its five arguments, is the layer of the join, the transposed weights
    and the bias. -/
theorem result_eq_layer (x0 : (⟨S800000x128, .f32⟩ : BufTy).Contents (Elt Ideal))
    (x1 : (⟨S50000x128, .f32⟩ : BufTy).Contents (Elt Ideal)) (x2 : (⟨S800000, .i32⟩ : BufTy).Contents (Elt Ideal))
    (x3 : (⟨S128x256, .f32⟩ : BufTy).Contents (Elt Ideal)) (x4 : (⟨S128, .f32⟩ : BufTy).Contents (Elt Ideal)) :
    val_main_v9 (F := Ideal) x0 x1 x2 x3 x4
      = Cert.NodeLayer.layer (φQ := .f32) (φW := .f32) (φb := .f32) (val_main_v3 (F := Ideal) x0 x1 x2)
          (val_main_v4 (F := Ideal) x3) x4 := by
  funext i
  obtain ⟨p, q, rfl⟩ : ∃ (p : Fin 50000) (q : Fin 128), i = ix2 p q := ⟨i 0, i 1, eq_ix2 i⟩
  have el : ∀ k : Fin 256, lidx_main_v5 (ix2 p q) k = ix2 p k := fun k =>
    funext fun a => Fin.ext (by match a with | ⟨0, _⟩ => rfl | ⟨1, _⟩ => rfl)
  have er : ∀ k : Fin 256, ridx_main_v5 (ix2 p q) k = ix2 k q := fun k =>
    funext fun a => Fin.ext (by match a with | ⟨0, _⟩ => rfl | ⟨1, _⟩ => rfl)
  have eb : idx_main_v6 (idx_main_v7 (ix2 p q)) = ix1 q :=
    funext fun a => Fin.ext (by match a with | ⟨0, _⟩ => rfl)
  rw [val_main_v9_apply, val_main_v8_apply, val_main_v5_apply, val_main_v7_apply, val_main_v6_apply,
    val_main_call0_v0_apply, val_main_call0_cst_apply, Cert.NodeLayer.layer_apply, eb]
  simp only [el, er]
  rfl

end Cert.ReferenceIdeal.RefLayer

end
-- ==== Proof.lean ====
/-
  A graph layer that updates every node from its own features and the features of its incoming edges.

  Both programs first add each of the 800000 edge rows onto the row of the edge's destination node (the same
  scatter-add, on the host, from zero), join that 50000 × 128 array to the right of the nodes' own 50000 × 128
  features, and apply one dense layer to the 256 joined columns: `max (join · Wᵀ + b, 0)`. The reference does the
  layer as one matrix product over all nodes. The kernel does it in 25 blocks of 2000 nodes, joining the two
  blocks, multiplying by the transposed weights into a zero accumulator, adding the bias row and clamping at zero;
  it narrows the features and the weights to a shorter float format first, which on extended reals changes nothing.

  At every node `p` and output feature `q` both sides are the same sum `∑ k < 256, join[p, k] · W[q, k]`, in the same
  order, plus `b[q]`, clamped below at zero. No entry needs to be finite for that, so the precondition is not used.

  The pieces: the layer and two facts about rows (Layer); the reference's result is the layer (RefLayer); what the
  kernel's body stores at one element (BodyLayer, over the plain matrix product at an element, LibPlainDot); the
  kernel's result array, block by block, is the layer (KernelLayer). The three runs and the facts the programs state
  are the generated modules'.
-/
import proofs.«128470_j7387343749430_1_alg».proof.Defs
import proofs.«128470_j7387343749430_1_alg».proof.Proof.Gen.Kernel
import proofs.«128470_j7387343749430_1_alg».proof.Proof.Gen.Kernel.Skeleton
import proofs.«128470_j7387343749430_1_alg».proof.Proof.Gen.Kernel.Launch
import proofs.«128470_j7387343749430_1_alg».proof.Proof.Gen.Kernel.Points
import proofs.«128470_j7387343749430_1_alg».proof.Proof.Gen.Kernel.Frame
import proofs.«128470_j7387343749430_1_alg».proof.Proof.Gen.KernelIdeal
import proofs.«128470_j7387343749430_1_alg».proof.Proof.Gen.KernelIdeal.Skeleton
import proofs.«128470_j7387343749430_1_alg».proof.Proof.Gen.KernelIdeal.Launch
import proofs.«128470_j7387343749430_1_alg».proof.Proof.Gen.KernelIdeal.Points
import proofs.«128470_j7387343749430_1_alg».proof.Proof.Gen.KernelIdeal.Frame
import proofs.«128470_j7387343749430_1_alg».proof.Proof.Gen.ReferenceIdeal
import proofs.«128470_j7387343749430_1_alg».proof.Proof.Gen.Pre_finite_inputs
import proofs.«128470_j7387343749430_1_alg».proof.Proof.Gen.KernelIdeal.Value
import proofs.«128470_j7387343749430_1_alg».proof.Proof.Gen.ReferenceIdeal.Run
import proofs.«128470_j7387343749430_1_alg».proof.Proof.Gen.ReferenceIdeal.Read
import proofs.«128470_j7387343749430_1_alg».proof.Proof.KernelLayer
import proofs.«128470_j7387343749430_1_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both the layer of the join of the
    nodes' features with the aggregated edge features, the transposed weights and the bias. -/
theorem algebraic : Cert.algebraic_KernelIdeal_ReferenceIdeal := by
  intro m ρ m' ρ' _ hagree
  refine ⟨fun c => Cert.KernelIdeal.NodeValue.result m c, Cert.KernelIdeal.NodeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefLayer.result_eq_layer,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
